-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.ScaleShift.lean ====
/-
  Scaling and shifting the columns of a matrix: for a matrix `x` of 8192 rows and 4096 columns and two vectors
  `w`, `b` of length 4096, the matrix whose entry at row `r`, column `k` is `x r k · w k + b k`.
  This is the one function of the three argument arrays that both programs are shown to compute; it is stated at
  any float instance, since nothing beyond one product and one sum per entry is involved.
-/
import Idealize.ShloMosaic.PureOps.Ideal
import Idealize.ShloMosaic.Lib.ValueIdx

noncomputable section

namespace Cert.ScaleShift

open Idealize.ShloMosaic Idealize.ShloMosaic.ValueIdx

variable {F : FTy → Type} [FloatOps F]

/-- Entry `(r, k)` of the result is `x (r, k) · w k + b k`: each column `k` of `x` is scaled by `w k` and shifted
    by `b k`, the same for every row. -/
def colAffine (x : (⟨2, ![8192, 4096]⟩ : Shape).Idx → Elt F .f32) (w b : (⟨1, ![4096]⟩ : Shape).Idx → Elt F .f32) :
    (⟨2, ![8192, 4096]⟩ : Shape).Idx → Elt F .f32 :=
  fun i => FloatOps.addf (FloatOps.mulf (x i) (w (ix1 (n := 4096) (i 1)))) (b (ix1 (n := 4096) (i 1)))

/-- The function read at an entry. -/
theorem colAffine_apply (x : (⟨2, ![8192, 4096]⟩ : Shape).Idx → Elt F .f32) (w b : (⟨1, ![4096]⟩ : Shape).Idx → Elt F .f32)
    (i : (⟨2, ![8192, 4096]⟩ : Shape).Idx) :
    colAffine x w b i = FloatOps.addf (FloatOps.mulf (x i) (w (ix1 (n := 4096) (i 1)))) (b (ix1 (n := 4096) (i 1))) := rfl

end Cert.ScaleShift

end
-- ==== Proof.KernelBands.lean ====
/-
  The kernel computes the column-wise scale and shift, one band of 512 rows per grid point.

  Before the call the two vectors are reshaped to one row of 4096 entries each and the matrix is copied into the
  result's buffer. At grid point `t` the body reads rows `512·t … 512·t + 511` of the matrix and the two rows of
  4096 entries, repeats each of those down the 512 rows, multiplies and adds, and the band is written back to the
  same rows of the result. So band `t` of the result is band `t` of the function `(r, k) ↦ x (r, k) · w k + b k`
  of the argument arrays, and the sixteen bands cover all 8192 rows.
-/
import proofs.«406150_j6837587936175_3_alg».proof.Proof.Gen.KernelIdeal.Value
import proofs.«406150_j6837587936175_3_alg».proof.Proof.ScaleShift
import Idealize.ShloMosaic.Lib.StableHlo.Run

noncomputable section

namespace Cert.KernelIdeal.Bands

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-! ## What the body leaves in a band, entry by entry -/

theorem zero_offsets : (![0, 0] : Fin 2 → Nat) = fun _ => 0 := funext fun a => by fin_cases a <;> rfl

/-- The column of an entry of a band. -/
def colOf (y : S512x4096.Idx) : Fin 4096 := ⟨(y 1).val, (y 1).isLt⟩

/-- Entry `(0, k)` of a one-row block. -/
abbrev rowEntry (k : Fin 4096) : S1x4096.Idx := ix2 (n0 := 1) (n1 := 4096) 0 k

/-- Entry `(p, k)` of the band the body stores: the band of the matrix there, times entry `k` of the scale row, plus
    entry `k` of the shift row. -/
theorem band_apply (x0 : Vec F S512x4096 .f32) (x1 x2 : Vec F S1x4096 .f32) (y : S512x4096.Idx) :
    out0_3 x0 x1 x2 y
      = FloatOps.addf (FloatOps.mulf (x0 y) (x1 (rowEntry (colOf y)))) (x2 (rowEntry (colOf y))) := by
  unfold out0_3
  rw [Value.canon3_eq]
  simp only [View.ld_unit_zero (S := S512x4096) zero_offsets, View.ld_unit_zero (S := S1x4096) zero_offsets]
  have e0 : Value.ix3_0 y = y := funext fun a => Fin.ext (by match a with | ⟨0, _⟩ => rfl | ⟨1, _⟩ => rfl)
  have e1 : Value.ix3_1 y = rowEntry (colOf y) := funext fun a => Fin.ext (by match a with | ⟨0, _⟩ => rfl | ⟨1, _⟩ => rfl)
  have e2 : Value.ix3_2 y = rowEntry (colOf y) := funext fun a => Fin.ext (by match a with | ⟨0, _⟩ => rfl | ⟨1, _⟩ => rfl)
  show FloatOps.addf (FloatOps.mulf (x0 (Value.ix3_0 y)) (x1 (Value.ix3_1 y))) (x2 (Value.ix3_2 y)) = _
  rw [e0, e1, e2]

/-! ## The arrays the call finds -/

/-- The scale vector reshaped to one row: entry `(0, k)` of the row is entry `k` of the vector. -/
theorem scale_row (c : Dev nD) (q : Fin 4096) :
    V m c main_v0 (rowEntry q) = m ((c : Thread nD τ).loc main_arg1) (ix1 (n := 4096) q) := by
  have e : (V m c main_v0 : S1x4096.Idx → Elt F .f32) = shapeCast S1x4096 (m ((c : Thread nD τ).loc main_arg1)) shapeCasts_S4096_S1x4096 := by
    dsimp only [Gen.V, Gen.hostOps0]; after_results; rfl
  rw [e]
  refine shapeCast_apply _ _ (rowEntry q) (ix1 (n := 4096) q) ?_
  rw [Shape.rowMajor_val_one, Shape.rowMajor_val_two]
  show q.val = 0 * 4096 + q.val
  omega

/-- The shift vector reshaped to one row, likewise. -/
theorem shift_row (c : Dev nD) (q : Fin 4096) :
    V m c main_v1 (rowEntry q) = m ((c : Thread nD τ).loc main_arg2) (ix1 (n := 4096) q) := by
  have e : (V m c main_v1 : S1x4096.Idx → Elt F .f32) = shapeCast S1x4096 (m ((c : Thread nD τ).loc main_arg2)) shapeCasts_S4096_S1x4096 := by
    dsimp only [Gen.V, Gen.hostOps0]; after_results; rfl
  rw [e]
  refine shapeCast_apply _ _ (rowEntry q) (ix1 (n := 4096) q) ?_
  rw [Shape.rowMajor_val_one, Shape.rowMajor_val_two]
  show q.val = 0 * 4096 + q.val
  omega

/-! ## Band `t` of the result -/

/-- The function the result ends at: the column-wise scale and shift of the three arguments as launched. -/
abbrev target (c : Dev nD) : S8192x4096.Idx → Elt F .f32 :=
  Cert.ScaleShift.colAffine (m ((c : Thread nD τ).loc main_arg0)) (m ((c : Thread nD τ).loc main_arg1)) (m ((c : Thread nD τ).loc main_arg2))

/-- The printed index maps over the sixteen points: the matrix's band moves with the result's band, the two rows
    stay put, and the result's band index is the point itself with column block 0. -/
theorem band_index : ∀ t : Fin cfg0.N, win0_0.index t (0 : Fin 2) = win0_3.index t (0 : Fin 2)
    ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of what the body leaves at point `t` is the target at the entry of the result under it. -/
theorem band_entry (c : Dev nD) (t : Fin cfg0.N) (y : S512x4096.Idx) :
    out0_3 (iblk m c 0 t) (iblk m c 1 t) (iblk m c 2 t) y = target m c (((cfg0.win 3).blk t).view.emb y) := by
  obtain ⟨e0, e1, e2, e3, e4, e5, e6, e7⟩ := band_index t
  have hy0 : (y 0).val < 512 := (y 0).isLt
  have hy1 : (y 1).val < 4096 := (y 1).isLt
  have hq : (colOf y).val = (y 1).val := rfl
  refine (band_apply _ _ _ y).trans ?_
  show _ = Cert.ScaleShift.colAffine (m ((c : Thread nD τ).loc main_arg0)) (m ((c : Thread nD τ).loc main_arg1))
    (m ((c : Thread nD τ).loc main_arg2)) (((cfg0.win 3).blk t).view.emb y)
  rw [Cert.ScaleShift.colAffine_apply]
  -- the matrix's band at the point is the same rows of the argument
  have hx : iblk m c 0 t y = m ((c : Thread nD τ).loc main_arg0) (((cfg0.win 3).blk t).view.emb y) := by
    show V m c main_arg0 (((cfg0.win 0).blk t).view.emb y) = _
    rw [V_main_arg0]
    refine congrArg _ ?_
    funext a; apply Fin.ext
    match a with
    | ⟨0, _⟩ => show win0_0.index t (0 : Fin 2) * 512 + 1 * (y 0).val = win0_3.index t (0 : Fin 2) * 512 + 1 * (y 0).val; omega
    | ⟨1, _⟩ => show win0_0.index t (1 : Fin 2) * 4096 + 1 * (y 1).val = win0_3.index t (1 : Fin 2) * 4096 + 1 * (y 1).val; omega
  -- the one-row blocks are the reshaped vectors themselves
  have hrow1 : ((cfg0.win 1).blk t).view.emb (rowEntry (colOf y)) = rowEntry (colOf y) := by
    funext a; apply Fin.ext
    match a with
    | ⟨0, _⟩ => show win0_1.index t (0 : Fin 2) * 1 + 1 * 0 = 0; omega
    | ⟨1, _⟩ => show win0_1.index t (1 : Fin 2) * 4096 + 1 * (colOf y).val = (colOf y).val; omega
  have hrow2 : ((cfg0.win 2).blk t).view.emb (rowEntry (colOf y)) = rowEntry (colOf y) := by
    funext a; apply Fin.ext
    match a with
    | ⟨0, _⟩ => show win0_2.index t (0 : Fin 2) * 1 + 1 * 0 = 0; omega
    | ⟨1, _⟩ => show win0_2.index t (1 : Fin 2) * 4096 + 1 * (colOf y).val = (colOf y).val; omega
  -- and the entry's column in the result is its column in the band
  have hcol : (ix1 (n := 4096) (colOf y) : S4096.Idx) = ix1 (n := 4096) ((((cfg0.win 3).blk t).view.emb y) 1) := by
    refine congrArg _ (Fin.ext ?_)
    show (colOf y).val = win0_3.index t (1 : Fin 2) * 4096 + 1 * (y 1).val
    omega
  have hw : iblk m c 1 t (rowEntry (colOf y))
      = m ((c : Thread nD τ).loc main_arg1) (ix1 (n := 4096) ((((cfg0.win 3).blk t).view.emb y) 1)) := by
    show V m c main_v0 (((cfg0.win 1).blk t).view.emb (rowEntry (colOf y))) = _
    rw [hrow1, scale_row, hcol]
  have hb : iblk m c 2 t (rowEntry (colOf y))
      = m ((c : Thread nD τ).loc main_arg2) (ix1 (n := 4096) ((((cfg0.win 3).blk t).view.emb y) 1)) := by
    show V m c main_v1 (((cfg0.win 2).blk t).view.emb (rowEntry (colOf y))) = _
    rw [hrow2, shift_row, hcol]
  rw [hx, hw, hb]

/-- What point `t` writes back is band `t` of the target. -/
theorem flushed_band (c : Dev nD) (t : Fin cfg0.N) :
    (dats m 0 c).flushed 3 t = ((cfg0.win 3).blk t).view.read (Elt F) (target m c) := by
  rw [Value.flushed3]
  funext j
  exact band_entry m c t j

/-! ## The bands cover the result -/

/-- An entry is in band `t` iff its row is one of the band's 512 and its column any of the 4096. -/
theorem mem_band (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v2).slice (win0_3.rect t)).set ↔ _
  rw [View.set_slice_whole, Rect.mem_set_unit]
  exact Iff.rfl

/-- Every entry lies in the band of its row divided by 512. -/
theorem bands_cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  let t : Fin cfg0.N := ⟨(i 0).val / 512, by rw [hN]; omega⟩
  obtain ⟨-, -, -, -, -, -, e6, e7⟩ := band_index t
  have e6' : win0_3.index t (0 : Fin 2) = (i 0).val / 512 := e6
  refine ⟨t, flush0_3 t, ?_⟩
  rw [mem_band]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-! ## The result array, and the run -/

/-- After the sixteen write-backs the result array is the target. -/
theorem result_array (c : Dev nD) : (dats m 0 c).arrAt 3 cfg0.N = target m c :=
  (dats m 0 c).arrAt_eq_of_cover 3 (target m c) (fun t _ => flushed_band m c t) bands_cover

/-- Every weakly fair execution of the kernel's program ends with the result at the column-wise scale and shift of
    the arguments as launched, and the arguments unchanged. -/
theorem run : θ_run defs (onTc (τ := τ) (main (F := F))) ⟨m, fun _ => 0, ρ⟩ fun r => ∀ c : Dev nD,
      r.2.mem ((c : Thread nD τ).loc main_v2) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.Bands

end
-- ==== Proof.ReferenceValue.lean ====
/-
  The reference computes the column-wise scale and shift. Its six host operations broadcast the two vectors along
  the rows (first to one row of 4096 entries, then to all 8192 rows), multiply and add; read at an entry `(r, k)`,
  each broadcast only forgets the row, so the result there is `x (r, k) · w k + b k`.
-/
import proofs.«406150_j6837587936175_3_alg».proof.Proof.Gen.ReferenceIdeal.Read
import proofs.«406150_j6837587936175_3_alg».proof.Proof.ScaleShift

noncomputable section

namespace Cert.ReferenceIdeal.RefValue

open Cert.ReferenceIdeal Cert.ReferenceIdeal.Read Idealize.ShloMosaic Idealize.ShloMosaic.ValueIdx

variable {F : FTy → Type} [FloatOps F]

/-- The two broadcasts of a vector, read at a matrix entry, arrive at the entry's column. -/
theorem col_of_scale (i : S8192x4096.Idx) : idx_main_v0 (idx_main_v1 i) = ix1 (n := 4096) (i 1) :=
  funext fun a => Fin.ext (by match a with | ⟨0, _⟩ => rfl)

/-- The same for the shift vector's two broadcasts. -/
theorem col_of_shift (i : S8192x4096.Idx) : idx_main_v3 (idx_main_v4 i) = ix1 (n := 4096) (i 1) :=
  funext fun a => Fin.ext (by match a with | ⟨0, _⟩ => rfl)

/-- The reference's last stage is the column-wise scale and shift of its three arguments. -/
theorem result_eq (x : (⟨S8192x4096, .f32⟩ : BufTy).Contents (Elt F)) (w b : (⟨S4096, .f32⟩ : BufTy).Contents (Elt F)) :
    val_main_v5 (F := F) x w b = Cert.ScaleShift.colAffine x w b := by
  funext i
  rw [val_main_v5_apply, val_main_v2_apply, val_main_v1_apply, val_main_v0_apply, val_main_v4_apply, val_main_v3_apply,
    col_of_scale, col_of_shift, Cert.ScaleShift.colAffine_apply]

end Cert.ReferenceIdeal.RefValue

end
-- ==== Proof.lean ====
/-
  The kernel `out = x * weight + bias` (a matrix of 8192 rows and 4096 columns, each column scaled by its entry of
  `weight` and shifted by its entry of `bias`), computed in sixteen bands of 512 rows, against the same expression in
  plain array code. Both programs end with the result at the one function `(r, k) ↦ x (r, k) · w k + b k` of the
  argument arrays: no algebraic law is needed, only that the kernel's bands are restrictions of that function
  and cover the matrix (Proof/KernelBands.lean), and that the reference's broadcasts read the entry's column
  (Proof/ReferenceValue.lean). The precondition is never opened. The ideal pass rewrote nothing, so the
  idealization claim is trivial.
-/
import proofs.«406150_j6837587936175_3_alg».proof.Defs
import proofs.«406150_j6837587936175_3_alg».proof.Proof.Gen.Kernel
import proofs.«406150_j6837587936175_3_alg».proof.Proof.Gen.Kernel.Skeleton
import proofs.«406150_j6837587936175_3_alg».proof.Proof.Gen.Kernel.Launch
import proofs.«406150_j6837587936175_3_alg».proof.Proof.Gen.Kernel.Points
import proofs.«406150_j6837587936175_3_alg».proof.Proof.Gen.Kernel.Frame
import proofs.«406150_j6837587936175_3_alg».proof.Proof.Gen.KernelIdeal
import proofs.«406150_j6837587936175_3_alg».proof.Proof.Gen.KernelIdeal.Skeleton
import proofs.«406150_j6837587936175_3_alg».proof.Proof.Gen.KernelIdeal.Launch
import proofs.«406150_j6837587936175_3_alg».proof.Proof.Gen.KernelIdeal.Points
import proofs.«406150_j6837587936175_3_alg».proof.Proof.Gen.KernelIdeal.Frame
import proofs.«406150_j6837587936175_3_alg».proof.Proof.Gen.ReferenceIdeal
import proofs.«406150_j6837587936175_3_alg».proof.Proof.Gen.Pre_finite_inputs
import proofs.«406150_j6837587936175_3_alg».proof.Proof.Gen.KernelIdeal.Value
import proofs.«406150_j6837587936175_3_alg».proof.Proof.Gen.ReferenceIdeal.Run
import proofs.«406150_j6837587936175_3_alg».proof.Proof.Gen.ReferenceIdeal.Read
import proofs.«406150_j6837587936175_3_alg».proof.Proof.KernelBands
import proofs.«406150_j6837587936175_3_alg».proof.Proof.ReferenceValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel :=
  fun m ρ _ => Cert.Kernel.Gen.frame m ρ

/-- So does the kernel read over the extended reals. -/
theorem frame_kernelIdeal : Cert.frame_KernelIdeal :=
  fun m ρ _ => Cert.KernelIdeal.Gen.frame m ρ

/-- The reference is a straight line of six array operations: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the three arguments, both programs end with the result at the column-wise scale
    and shift of those arguments. -/
theorem algebraic : Cert.algebraic_KernelIdeal_ReferenceIdeal := by
  intro m ρ m' ρ' _ hagree
  refine ⟨fun c => Cert.KernelIdeal.Bands.target (F := Ideal) m c, Cert.KernelIdeal.Bands.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
